-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x11 : Shape := ⟨2, ![8192, 11]⟩
abbrev S8192x32768 : Shape := ⟨2, ![8192, 32768]⟩
abbrev S22x8 : Shape := ⟨2, ![22, 8]⟩
abbrev S8 : Shape := ⟨1, ![8]⟩
abbrev S8x1 : Shape := ⟨2, ![8, 1]⟩
abbrev S1 : Shape := ⟨1, ![1]⟩
abbrev S_ : Shape := ⟨0, ![]⟩

class Facts : Prop where
  bcast_S_S8192x11 : S_.BroadcastsInDim S8192x11 (![] : Fin 0 → Fin S8192x11.rank)
  reducesTo_S8192x11_S_d0_1 : S8192x11.ReducesTo [0, 1] S_
  h_S_ : 0 < S_.numel
  bcast_S_S8192x32768 : S_.BroadcastsInDim S8192x32768 (![] : Fin 0 → Fin S8192x32768.rank)
  reducesTo_S8192x32768_S_d0_1 : S8192x32768.ReducesTo [0, 1] S_
  bcast_S_S22x8 : S_.BroadcastsInDim S22x8 (![] : Fin 0 → Fin S22x8.rank)
  reducesTo_S22x8_S_d0_1 : S22x8.ReducesTo [0, 1] S_
  bcast_S_S8 : S_.BroadcastsInDim S8 (![] : Fin 0 → Fin S8.rank)
  reducesTo_S8_S_d0 : S8.ReducesTo [0] S_
  bcast_S_S8x1 : S_.BroadcastsInDim S8x1 (![] : Fin 0 → Fin S8x1.rank)
  reducesTo_S8x1_S_d0_1 : S8x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S8 .f32) (main_arg5 : FVec F S8x1 .f32) (main_arg6 : FVec F S1 .f32) (main_v13 : IVec S_ 1) (main_v16 : IVec S22x8 1) : IVec S_ 1 :=
  let main_c_5 : IVec S_ 1 := constantI S_ 1 1#1
  let main_v17 : IVec S_ 1 := (fun x v => Host.reduce IntOp.andi x v reducesTo_S22x8_S_d0_1 h_S_) main_v16 main_c_5
  let main_v18 : IVec S_ 1 := andi main_v13 main_v17
  let main_v19 : FVec F S8 .f32 := Host.absf main_arg4
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S8x1 .f32 := Host.absf main_arg5
  let main_cst_8 : FVec F S_ .f32 := constant S_ .f32 0x7F800000#32
  let main_v25 : FVec F S8x1 .f32 := broadcastInDim S8x1 ![] bcast_S_S8x1 main_cst_8
  let main_v26 : IVec S8x1 1 := cmpf .olt main_v24 main_v25
  let main_c_9 : IVec S_ 1 := constantI S_ 1 1#1
  let main_v27 : IVec S_ 1 := (fun x v => Host.reduce IntOp.andi x v reducesTo_S8x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S8192x11 .f32) (main_arg1 : FVec F S8192x32768 .f32) (main_arg2 : FVec F S8192x32768 .f32) (main_arg3 : FVec F S22x8 .f32) (main_arg4 : FVec F S8 .f32) (main_arg5 : FVec F S8x1 .f32) (main_arg6 : FVec F S1 .f32) : IVec S_ 1 :=
  let main_v0 : FVec F S8192x11 .f32 := Host.absf main_arg0
  let main_cst : FVec F S_ .f32 := constant S_ .f32 0x7F800000#32
  let main_v1 : FVec F S8192x11 .f32 := broadcastInDim S8192x11 ![] bcast_S_S8192x11 main_cst
  let main_v2 : IVec S8192x11 1 := cmpf .olt main_v0 main_v1
  let main_c : IVec S_ 1 := constantI S_ 1 1#1
  let main_v3 : IVec S_ 1 := (fun x v => Host.reduce IntOp.andi x v reducesTo_S8192x11_S_d0_1 h_S_) main_v2 main_c
  let main_v4 : FVec F S8192x32768 .f32 := Host.absf main_arg1
  let main_cst_0 : FVec F S_ .f32 := constant S_ .f32 0x7F800000#32
  let main_v5 : FVec F S8192x32768 .f32 := broadcastInDim S8192x32768 ![] bcast_S_S8192x32768 main_cst_0
  let main_v6 : IVec S8192x32768 1 := cmpf .olt main_v4 main_v5
  let main_c_1 : IVec S_ 1 := constantI S_ 1 1#1
  let main_v7 : IVec S_ 1 := (fun x v => Host.reduce IntOp.andi x v reducesTo_S8192x32768_S_d0_1 h_S_) main_v6 main_c_1
  let main_v8 : IVec S_ 1 := andi main_v3 main_v7
  let main_v9 : FVec F S8192x32768 .f32 := Host.absf main_arg2
  let main_cst_2 : FVec F S_ .f32 := constant S_ .f32 0x7F800000#32
  let main_v10 : FVec F S8192x32768 .f32 := broadcastInDim S8192x32768 ![] bcast_S_S8192x32768 main_cst_2
  let main_v11 : IVec S8192x32768 1 := cmpf .olt main_v9 main_v10
  let main_c_3 : IVec S_ 1 := constantI S_ 1 1#1
  let main_v12 : IVec S_ 1 := (fun x v => Host.reduce IntOp.andi x v reducesTo_S8192x32768_S_d0_1 h_S_) main_v11 main_c_3
  let main_v13 : IVec S_ 1 := andi main_v8 main_v12
  let main_v14 : FVec F S22x8 .f32 := Host.absf main_arg3
  let main_cst_4 : FVec F S_ .f32 := constant S_ .f32 0x7F800000#32
  let main_v15 : FVec F S22x8 .f32 := broadcastInDim S22x8 ![] bcast_S_S22x8 main_cst_4
  let main_v16 : IVec S22x8 1 := cmpf .olt main_v14 main_v15
  fn_part1 (F := F) main_arg4 main_arg5 main_arg6 main_v13 main_v16
-- ==== Kernel.lean ====
abbrev S8192x11 : Shape := ⟨2, ![8192, 11]⟩
abbrev S8192x32768 : Shape := ⟨2, ![8192, 32768]⟩
abbrev S22x8 : Shape := ⟨2, ![22, 8]⟩
abbrev S8 : Shape := ⟨1, ![8]⟩
abbrev S8x1 : Shape := ⟨2, ![8, 1]⟩
abbrev S1 : Shape := ⟨1, ![1]⟩
abbrev S11x8192 : Shape := ⟨2, ![11, 8192]⟩
abbrev S8x22 : Shape := ⟨2, ![8, 22]⟩
abbrev S1x8 : Shape := ⟨2, ![1, 8]⟩
abbrev S1x1 : Shape := ⟨2, ![1, 1]⟩
abbrev S1x32768 : Shape := ⟨2, ![1, 32768]⟩
abbrev S8192x256 : Shape := ⟨2, ![8192, 256]⟩
abbrev S1x256 : Shape := ⟨2, ![1, 256]⟩
abbrev S11x256 : Shape := ⟨2, ![11, 256]⟩
abbrev S22x256 : Shape := ⟨2, ![22, 256]⟩
abbrev S8x256 : Shape := ⟨2, ![8, 256]⟩
abbrev S32768x1 : Shape := ⟨2, ![32768, 1]⟩

abbrev nBuf : Space → Nat
  | .hbm => 14
  | .vmem => 11
  | .smem => 0
  | _ => 0

abbrev bufTy : (tb : Table) → Fin (tcTables nBuf tb) → BufTy
  | .hbm, ⟨0, _⟩ => ⟨S8192x11, .f32⟩
  | .hbm, ⟨1, _⟩ => ⟨S8192x32768, .f32⟩
  | .hbm, ⟨2, _⟩ => ⟨S8192x32768, .f32⟩
  | .hbm, ⟨3, _⟩ => ⟨S22x8, .f32⟩
  | .hbm, ⟨4, _⟩ => ⟨S8, .f32⟩
  | .hbm, ⟨5, _⟩ => ⟨S8x1, .f32⟩
  | .hbm, ⟨6, _⟩ => ⟨S1, .f32⟩
  | .hbm, ⟨7, _⟩ => ⟨S11x8192, .f32⟩
  | .hbm, ⟨8, _⟩ => ⟨S8x22, .f32⟩
  | .hbm, ⟨9, _⟩ => ⟨S1x8, .f32⟩
  | .hbm, ⟨10, _⟩ => ⟨S8x1, .f32⟩
  | .hbm, ⟨11, _⟩ => ⟨S1x1, .f32⟩
  | .hbm, ⟨12, _⟩ => ⟨S1x32768, .f32⟩
  | .hbm, ⟨13, _⟩ => ⟨S32768x1, .f32⟩
  | .local _ .vmem, ⟨0, _⟩ => ⟨S8192x256, .f32⟩
  | .local _ .vmem, ⟨1, _⟩ => ⟨S8192x256, .f32⟩
  | .local _ .vmem, ⟨2, _⟩ => ⟨S8192x256, .f32⟩
  | .local _ .vmem, ⟨3, _⟩ => ⟨S8192x256, .f32⟩
  | .local _ .vmem, ⟨4, _⟩ => ⟨S11x8192, .f32⟩
  | .local _ .vmem, ⟨5, _⟩ => ⟨S8x22, .f32⟩
  | .local _ .vmem, ⟨6, _⟩ => ⟨S8x1, .f32⟩
  | .local _ .vmem, ⟨7, _⟩ => ⟨S1x8, .f32⟩
  | .local _ .vmem, ⟨8, _⟩ => ⟨S1x1, .f32⟩
  | .local _ .vmem, ⟨9, _⟩ => ⟨S1x256, .f32⟩
  | .local _ .vmem, ⟨10, _⟩ => ⟨S1x256, .f32⟩
  | _, _ => ⟨S8192x11, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S11x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x22 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S8192x11_S11x8192_1_0 : S8192x11.Transposes [1, 0] S11x8192
  transposes_S22x8_S8x22_1_0 : S22x8.Transposes [1, 0] S8x22
  transposes_S8x1_S1x8_1_0 : S8x1.Transposes [1, 0] S1x8
  shapeCasts_S8_S8x1 : S8.ShapeCasts S8x1
  shapeCasts_S1_S1x1 : S1.ShapeCasts S1x1
  inb_S8192x256_S8192x256_0_0 : ∀ a, (![0, 0] : Fin 2 → Nat) a + S8192x256.size a ≤ S8192x256.size a
  h_S8192x256 : 0 < S8192x256.numel
  inb_S11x8192_S11x8192_0_0 : ∀ a, (![0, 0] : Fin 2 → Nat) a + S11x8192.size a ≤ S11x8192.size a
  h_S11x8192 : 0 < S11x8192.numel
  shapeCasts_S11x8192_S11x8192 : S11x8192.ShapeCasts S11x8192
  concatenates_S11x256_S11x256_S22x256_d0 : Shape.Concatenates [S11x256, S11x256] S22x256 0
  inb_S8x22_S8x22_0_0 : ∀ a, (![0, 0] : Fin 2 → Nat) a + S8x22.size a ≤ S8x22.size a
  h_S8x22 : 0 < S8x22.numel
  shapeCasts_S8x22_S8x22 : S8x22.ShapeCasts S8x22
  inb_S8x1_S8x1_0_0 : ∀ a, (![0, 0] : Fin 2 → Nat) a + S8x1.size a ≤ S8x1.size a
  h_S8x1 : 0 < S8x1.numel
  shapeCasts_S8x1_S8x1 : S8x1.ShapeCasts S8x1
  broadcasts_S8x1_S8x256 : S8x1.Broadcasts S8x256
  inb_S1x8_S1x8_0_0 : ∀ a, (![0, 0] : Fin 2 → Nat) a + S1x8.size a ≤ S1x8.size a
  h_S1x8 : 0 < S1x8.numel
  shapeCasts_S1x8_S1x8 : S1x8.ShapeCasts S1x8
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x256 : S1x1.Broadcasts S1x256
  inb_S1x256_S1x256_0_0 : ∀ a, (![0, 0] : Fin 2 → Nat) a + S1x256.size a ≤ S1x256.size a
  h_S1x256 : 0 < S1x256.numel
  transposes_S1x32768_S32768x1_1_0 : S1x32768.Transposes [1, 0] S32768x1
  dot_S11x8192_S8192x256_S11x256_1_0_0_1_n_n_wf : DotDims.WF S11x8192 S8192x256 S11x256 [1] [0] [0] [1] [] []
  dot_S8x22_S22x256_S8x256_1_0_0_1_n_n_wf : DotDims.WF S8x22 S22x256 S8x256 [1] [0] [0] [1] [] []
  dot_S1x8_S8x256_S1x256_1_0_0_1_n_n_wf : DotDims.WF S1x8 S8x256 S1x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S8192x32768.size a
  hwx0_0 : ∀ i : grid0.Coords, EltTy.bits .f32 = 32 ∨ (Rect.block (s := S8192x32768) S8192x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x32768.size a
  hwx0_1 : ∀ i : grid0.Coords, EltTy.bits .f32 = 32 ∨ (Rect.block (s := S8192x32768) S8192x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S11x8192.size a ≤ S11x8192.size a
  hwx0_2 : ∀ i : grid0.Coords, EltTy.bits .f32 = 32 ∨ (Rect.block (s := S11x8192) S11x8192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x22.size a ≤ S8x22.size a
  hwx0_3 : ∀ i : grid0.Coords, EltTy.bits .f32 = 32 ∨ (Rect.block (s := S8x22) S8x22.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x1.size a ≤ S8x1.size a
  hwx0_4 : ∀ i : grid0.Coords, EltTy.bits .f32 = 32 ∨ (Rect.block (s := S8x1) S8x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x8.size a ≤ S1x8.size a
  hwx0_5 : ∀ i : grid0.Coords, EltTy.bits .f32 = 32 ∨ (Rect.block (s := S1x8) S1x8.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x32768.size a
  hwx0_7 : ∀ i : grid0.Coords, EltTy.bits .f32 = 32 ∨ (Rect.block (s := S1x32768) S1x256.size (cc0_transform_7 i) (hinb0_7 i)).WholeWords (EltTy.packing .f32)

variable [Facts₀]

def dot_S11x8192_S8192x256_S11x256_1_0_0_1_n_n : DotDims S11x8192 S8192x256 S11x256 where
  lhsContracting := [1]
  rhsContracting := [0]
  lhsNonContracting := [0]
  rhsNonContracting := [1]
  lhsBatch := []
  rhsBatch := []
  wf := dot_S11x8192_S8192x256_S11x256_1_0_0_1_n_n_wf
def dot_S8x22_S22x256_S8x256_1_0_0_1_n_n : DotDims S8x22 S22x256 S8x256 where
  lhsContracting := [1]
  rhsContracting := [0]
  lhsNonContracting := [0]
  rhsNonContracting := [1]
  lhsBatch := []
  rhsBatch := []
  wf := dot_S8x22_S22x256_S8x256_1_0_0_1_n_n_wf
def dot_S1x8_S8x256_S1x256_1_0_0_1_n_n : DotDims S1x8 S8x256 S1x256 where
  lhsContracting := [1]
  rhsContracting := [0]
  lhsNonContracting := [0]
  rhsNonContracting := [1]
  lhsBatch := []
  rhsBatch := []
  wf := dot_S1x8_S8x256_S1x256_1_0_0_1_n_n_wf

abbrev win0_0 : Pipeline.Window sig grid0 :=
  Pipeline.Window.ofSpec (Memref.whole main_arg2) S8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S11x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8x22.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S8x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x11 : Shape := ⟨2, ![8192, 11]⟩
abbrev S8192x32768 : Shape := ⟨2, ![8192, 32768]⟩
abbrev S22x8 : Shape := ⟨2, ![22, 8]⟩
abbrev S8 : Shape := ⟨1, ![8]⟩
abbrev S8x1 : Shape := ⟨2, ![8, 1]⟩
abbrev S1 : Shape := ⟨1, ![1]⟩
abbrev S32768x11 : Shape := ⟨2, ![32768, 11]⟩
abbrev S32768x22 : Shape := ⟨2, ![32768, 22]⟩
abbrev S32768x8 : Shape := ⟨2, ![32768, 8]⟩
abbrev S1x8 : Shape := ⟨2, ![1, 8]⟩
abbrev S32768x1 : Shape := ⟨2, ![32768, 1]⟩
abbrev S1x1 : Shape := ⟨2, ![1, 1]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S8192x11, .f32⟩
  | .hbm, ⟨1, _⟩ => ⟨S8192x32768, .f32⟩
  | .hbm, ⟨2, _⟩ => ⟨S8192x32768, .f32⟩
  | .hbm, ⟨3, _⟩ => ⟨S22x8, .f32⟩
  | .hbm, ⟨4, _⟩ => ⟨S8, .f32⟩
  | .hbm, ⟨5, _⟩ => ⟨S8x1, .f32⟩
  | .hbm, ⟨6, _⟩ => ⟨S1, .f32⟩
  | .hbm, ⟨7, _⟩ => ⟨S32768x11, .f32⟩
  | .hbm, ⟨8, _⟩ => ⟨S32768x11, .f32⟩
  | .hbm, ⟨9, _⟩ => ⟨S32768x22, .f32⟩
  | .hbm, ⟨10, _⟩ => ⟨S32768x8, .f32⟩
  | .hbm, ⟨11, _⟩ => ⟨S1x8, .f32⟩
  | .hbm, ⟨12, _⟩ => ⟨S32768x8, .f32⟩
  | .hbm, ⟨13, _⟩ => ⟨S32768x8, .f32⟩
  | .hbm, ⟨14, _⟩ => ⟨S32768x8, .f32⟩
  | .hbm, ⟨15, _⟩ => ⟨S32768x1, .f32⟩
  | .hbm, ⟨16, _⟩ => ⟨S1x1, .f32⟩
  | .hbm, ⟨17, _⟩ => ⟨S32768x1, .f32⟩
  | .hbm, ⟨18, _⟩ => ⟨S32768x1, .f32⟩
  | .hbm, ⟨19, _⟩ => ⟨S32768x1, .f32⟩
  | .hbm, ⟨20, _⟩ => ⟨S32768x1, .f32⟩
  | .hbm, ⟨21, _⟩ => ⟨S_, .f32⟩
  | .hbm, ⟨22, _⟩ => ⟨S32768x1, .f32⟩
  | .hbm, ⟨23, _⟩ => ⟨S32768x1, .f32⟩
  | .hbm, ⟨24, _⟩ => ⟨S_, .f32⟩
  | .hbm, ⟨25, _⟩ => ⟨S32768x1, .f32⟩
  | .hbm, ⟨26, _⟩ => ⟨S32768x1, .f32⟩
  | _, _ => ⟨S8192x11, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  concatenates_S32768x11_S32768x11_S32768x22_d1 : Shape.Concatenates [S32768x11, S32768x11] S32768x22 1
  bcast_S8_S1x8_1 : S8.BroadcastsInDim S1x8 (![1] : Fin 1 → Fin S1x8.rank)
  bcast_S1x8_S32768x8_0_1 : S1x8.BroadcastsInDim S32768x8 (![0, 1] : Fin 2 → Fin S32768x8.rank)
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  bcast_S_S32768x1 : S_.BroadcastsInDim S32768x1 (![] : Fin 0 → Fin S32768x1.rank)
  dot_S8192x32768_S8192x11_S32768x11_0_0_1_1_n_n_wf : DotDims.WF S8192x32768 S8192x11 S32768x11 [0] [0] [1] [1] [] []
  dot_S32768x22_S22x8_S32768x8_1_0_0_1_n_n_wf : DotDims.WF S32768x22 S22x8 S32768x8 [1] [0] [0] [1] [] []
  dot_S32768x8_S8x1_S32768x1_1_0_0_1_n_n_wf : DotDims.WF S32768x8 S8x1 S32768x1 [1] [0] [0] [1] [] []

variable [Facts₀]

def dot_S8192x32768_S8192x11_S32768x11_0_0_1_1_n_n : DotDims S8192x32768 S8192x11 S32768x11 where
  lhsContracting := [0]
  rhsContracting := [0]
  lhsNonContracting := [1]
  rhsNonContracting := [1]
  lhsBatch := []
  rhsBatch := []
  wf := dot_S8192x32768_S8192x11_S32768x11_0_0_1_1_n_n_wf
def dot_S32768x22_S22x8_S32768x8_1_0_0_1_n_n : DotDims S32768x22 S22x8 S32768x8 where
  lhsContracting := [1]
  rhsContracting := [0]
  lhsNonContracting := [0]
  rhsNonContracting := [1]
  lhsBatch := []
  rhsBatch := []
  wf := dot_S32768x22_S22x8_S32768x8_1_0_0_1_n_n_wf
def dot_S32768x8_S8x1_S32768x1_1_0_0_1_n_n : DotDims S32768x8 S8x1 S32768x1 where
  lhsContracting := [1]
  rhsContracting := [0]
  lhsNonContracting := [0]
  rhsNonContracting := [1]
  lhsBatch := []
  rhsBatch := []
  wf := dot_S32768x8_S8x1_S32768x1_1_0_0_1_n_n_wf

class Facts : Prop extends Facts₀ where

variable [Facts]
-- ==== Proof.EdgeScore.lean ====
/-
  The edge scorer of a two-layer network on gathered node features, as ONE function of the seven argument arrays.

  An edge `e` has a tail and a head, marked by column `e` of the two incidence matrices `Ro` and `Ri`
  (`[8192, 32768]`: nodes by edges). The gather puts 22 features on the edge,
      g(e, j) = Σ_n X[n, j] · Ro[n, e]          for j < 11,
      g(e, j) = Σ_n X[n, j − 11] · Ri[n, e]     for 11 ≤ j < 22;
  a hidden layer of eight units follows, h(e, k) = tanh (Σ_j W1[j, k] · g(e, j) + b1[k]), and the score is
      s(e) = σ (Σ_k W2[k, 0] · h(e, k) + b2[0]),     σ(x) = 1 / (1 + e^(−x)).
  All of it is read on the extended reals, with `tanh` and `σ` continued to ±∞ by their limits. The function is written
  over plain coordinate functions (a feature-major table `xt j n`, the edge's two incidence columns, the first layer
  unit-major `w1 k j`), so that a program that holds the arrays in another layout is compared with it by saying how its
  layout reads at coordinates. The only law that will be needed to identify a program with it is the commutativity of
  the product, which holds on all extended reals: no input has to be finite.
-/
import Idealize.ShloMosaic.Lib.ValueIdx
import Idealize.ShloMosaic.PureOps.Ideal.Laws

noncomputable section

open scoped BigOperators

namespace Cert.EdgeScore

open Idealize.ShloMosaic Idealize.ShloMosaic.ValueIdx

/-- Feature `j` of an edge whose tail and head columns are `ro` and `ri`: the first eleven features are the tail's
    (the node table summed against `ro`), the last eleven the head's (summed against `ri`). -/
def gather (xt : Fin 11 → Fin 8192 → EReal) (ro ri : Fin 8192 → EReal) (j : Fin 22) : EReal :=
  if h : j.val < 11 then ∑ n : Fin 8192, xt ⟨j.val, h⟩ n * ro n
  else ∑ n : Fin 8192, xt ⟨j.val - 11, by have := j.isLt; omega⟩ n * ri n

/-- Hidden unit `k` of the edge: `tanh` of the unit's weights against the 22 gathered features, plus its bias. -/
def hiddenUnit (xt : Fin 11 → Fin 8192 → EReal) (ro ri : Fin 8192 → EReal) (w1 : Fin 8 → Fin 22 → EReal) (b1 : Fin 8 → EReal)
    (k : Fin 8) : EReal :=
  Ideal.tanh ((∑ j : Fin 22, w1 k j * gather xt ro ri j) + b1 k)

/-- The edge's score: the logistic function of the output weights against the eight hidden units, plus the bias. -/
def edgeScore (xt : Fin 11 → Fin 8192 → EReal) (ro ri : Fin 8192 → EReal) (w1 : Fin 8 → Fin 22 → EReal) (b1 : Fin 8 → EReal)
    (w2 : Fin 8 → EReal) (b2 : EReal) : EReal :=
  Ideal.logistic ((∑ k : Fin 8, w2 k * hiddenUnit xt ro ri w1 b1 k) + b2)

/-- The `[32768, 1]` array of scores as a function of the seven arrays in their argument layouts: `X` node-major
    `[8192, 11]`, `Ri` and `Ro` nodes by edges, `W1` feature-major `[22, 8]`, `W2` a column `[8, 1]`. -/
def scores (X : FVec Ideal ⟨2, ![8192, 11]⟩ .f32) (Ri Ro : FVec Ideal ⟨2, ![8192, 32768]⟩ .f32)
    (W1 : FVec Ideal ⟨2, ![22, 8]⟩ .f32) (b1 : FVec Ideal ⟨1, ![8]⟩ .f32) (W2 : FVec Ideal ⟨2, ![8, 1]⟩ .f32)
    (b2 : FVec Ideal ⟨1, ![1]⟩ .f32) : FVec Ideal ⟨2, ![32768, 1]⟩ .f32 :=
  fun i => edgeScore (fun j n => X (ix2 n j)) (fun n => Ro (ix2 n (i 0))) (fun n => Ri (ix2 n (i 0)))
    (fun k j => W1 (ix2 j k)) (fun k => b1 (ix1 k)) (fun k => W2 (ix2 k (0 : Fin 1))) (b2 (ix1 (0 : Fin 1)))

end Cert.EdgeScore

end
-- ==== Proof.RefScore.lean ====
/-
  The reference program computes the edge scorer.

  Its result `[32768, 1]` is read at an edge `e` one stage at a time. The two gathers are contractions over the 8192
  nodes with the incidence matrix as the LEFT factor, `Σ_n Ro[n, e] · X[n, j]`; their concatenation along the feature
  axis holds the tail's eleven features then the head's; the first layer contracts the 22 features with the features as
  the left factor, `Σ_j g(e, j) · W1[j, k]`, the second the eight units, `Σ_k h(e, k) · W2[k, 0]`; the biases arrive by
  two broadcasts each; and the logistic function is spelt out, `1 / (1 + exp (−x))`, with the literal `1.0`.
  Each product is the scorer's with its factors exchanged, and the spelt-out quotient is the logistic function's
  definition on the extended reals once the literal is read as `1`. So the stage equals the scorer at every edge.
-/
import proofs.«129403_j36498632081416_1_alg».proof.Proof.Gen.ReferenceIdeal.Read
import proofs.«129403_j36498632081416_1_alg».proof.Proof.EdgeScore
import Idealize.ShloMosaic.PureOps.IdealRules

noncomputable section

open scoped BigOperators

namespace Cert.ReferenceIdeal.RefValue

open Cert.ReferenceIdeal Cert.ReferenceIdeal.Read Cert.EdgeScore
open Idealize.ShloMosaic Idealize.ShloMosaic.ValueIdx

/-- The literal `1.0` denotes the extended real `1`. -/
theorem one_word : Ideal.ofBits .f32 0x3F800000#32 = 1 := IdealRules.sign_bit.ideal_onePat .f32

/-! ## Where each stage reads its operands, by coordinates -/

theorem tail_lhs (e : Fin 32768) (j : Fin 11) (n : Fin 8192) : lidx_main_v0 (ix2 e j) n = ix2 n e :=
  funext fun a => Fin.ext (by match a with | ⟨0, _⟩ => rfl | ⟨1, _⟩ => rfl)
theorem tail_rhs (e : Fin 32768) (j : Fin 11) (n : Fin 8192) : ridx_main_v0 (ix2 e j) n = ix2 n j :=
  funext fun a => Fin.ext (by match a with | ⟨0, _⟩ => rfl | ⟨1, _⟩ => rfl)
theorem head_lhs (e : Fin 32768) (j : Fin 11) (n : Fin 8192) : lidx_main_v1 (ix2 e j) n = ix2 n e :=
  funext fun a => Fin.ext (by match a with | ⟨0, _⟩ => rfl | ⟨1, _⟩ => rfl)
theorem head_rhs (e : Fin 32768) (j : Fin 11) (n : Fin 8192) : ridx_main_v1 (ix2 e j) n = ix2 n j :=
  funext fun a => Fin.ext (by match a with | ⟨0, _⟩ => rfl | ⟨1, _⟩ => rfl)
theorem layer1_lhs (e : Fin 32768) (k : Fin 8) (j : Fin 22) : lidx_main_v3 (ix2 e k) j = ix2 e j :=
  funext fun a => Fin.ext (by match a with | ⟨0, _⟩ => rfl | ⟨1, _⟩ => rfl)
theorem layer1_rhs (e : Fin 32768) (k : Fin 8) (j : Fin 22) : ridx_main_v3 (ix2 e k) j = ix2 j k :=
  funext fun a => Fin.ext (by match a with | ⟨0, _⟩ => rfl | ⟨1, _⟩ => rfl)
theorem bias1_idx (e : Fin 32768) (k : Fin 8) : idx_main_v4 (idx_main_v5 (ix2 e k)) = ix1 k :=
  funext fun a => Fin.ext (by match a with | ⟨0, _⟩ => rfl)
theorem layer2_lhs (e : Fin 32768) (u : Fin 1) (k : Fin 8) : lidx_main_v8 (ix2 e u) k = ix2 e k :=
  funext fun a => Fin.ext (by match a with | ⟨0, _⟩ => rfl | ⟨1, _⟩ => rfl)
theorem layer2_rhs (e : Fin 32768) (k : Fin 8) : ridx_main_v8 (ix2 e (0 : Fin 1)) k = ix2 k (0 : Fin 1) :=
  funext fun a => Fin.ext (by match a with | ⟨0, _⟩ => rfl | ⟨1, _⟩ => rfl)
theorem bias2_idx (e : Fin 32768) (u : Fin 1) : idx_main_v9 (idx_main_v10 (ix2 e u)) = ix1 (0 : Fin 1) :=
  funext fun a => Fin.ext (by match a with | ⟨0, _⟩ => rfl)

/-! ## The stages -/

/-- The concatenated gathers at edge `e`, feature `j`: the tail's sum for `j < 11`, the head's from `11` on, each the
    scorer's with the two factors exchanged. -/
theorem gathered_eq (x0 : FVec Ideal S8192x11 .f32) (x1 x2 : FVec Ideal S8192x32768 .f32) (e : Fin 32768) (j : Fin 22) :
    val_main_v2 (F := Ideal) x0 x1 x2 (ix2 e j)
      = gather (fun j n => x0 (ix2 n j)) (fun n => x2 (ix2 n e)) (fun n => x1 (ix2 n e)) j := by
  unfold val_main_v2 gather
  by_cases h : j.val < 11
  · rw [dif_pos h,
      concatenate_pair_apply_left (t := S32768x22) (s₁ := S32768x11) (s₂ := S32768x11) _ _ _ _ (ix2 e j) rfl (ix2 e (⟨j.val, h⟩ : Fin 11))
        (fun b => by match b with | ⟨0, _⟩ => rfl | ⟨1, _⟩ => rfl),
      val_main_v0_apply]
    refine Finset.sum_congr rfl fun n _ => ?_
    rw [tail_lhs, tail_rhs]
    exact mul_comm _ _
  · have hj : j.val - 11 < 11 := by have := j.isLt; omega
    rw [dif_neg h,
      concatenate_pair_apply_right (t := S32768x22) (s₁ := S32768x11) (s₂ := S32768x11) _ _ _ _ (ix2 e j) rfl rfl (ix2 e (⟨j.val - 11, hj⟩ : Fin 11))
        (fun b => by
          match b with
          | ⟨0, _⟩ => intro _; rfl
          | ⟨1, _⟩ => intro hne; exact absurd rfl hne)
        (by show (j.val - 11) + 11 = j.val; omega),
      val_main_v1_apply]
    refine Finset.sum_congr rfl fun n _ => ?_
    rw [head_lhs, head_rhs]
    exact mul_comm _ _

/-- The first layer at edge `e`, unit `k`. -/
theorem hidden_eq (x0 : FVec Ideal S8192x11 .f32) (x1 x2 : FVec Ideal S8192x32768 .f32) (x3 : FVec Ideal S22x8 .f32)
    (x4 : FVec Ideal S8 .f32) (e : Fin 32768) (k : Fin 8) :
    val_main_v7 (F := Ideal) x0 x1 x2 x3 x4 (ix2 e k)
      = hiddenUnit (fun j n => x0 (ix2 n j)) (fun n => x2 (ix2 n e)) (fun n => x1 (ix2 n e)) (fun k j => x3 (ix2 j k))
          (fun k => x4 (ix1 k)) k := by
  rw [val_main_v7_apply, val_main_v6_apply, val_main_v3_apply, val_main_v5_apply, val_main_v4_apply, bias1_idx]
  have hs : (∑ j : Fin 22, val_main_v2 (F := Ideal) x0 x1 x2 (lidx_main_v3 (ix2 e k) j) * x3 (ridx_main_v3 (ix2 e k) j))
      = ∑ j : Fin 22, x3 (ix2 j k) * gather (fun j n => x0 (ix2 n j)) (fun n => x2 (ix2 n e)) (fun n => x1 (ix2 n e)) j :=
    Finset.sum_congr rfl fun j _ => by rw [layer1_lhs, layer1_rhs, gathered_eq]; exact mul_comm _ _
  rw [hs]
  rfl

/-- THE REFERENCE'S RESULT is the array of scores. -/
theorem reference_eq (x0 : FVec Ideal S8192x11 .f32) (x1 x2 : FVec Ideal S8192x32768 .f32) (x3 : FVec Ideal S22x8 .f32)
    (x4 : FVec Ideal S8 .f32) (x5 : FVec Ideal S8x1 .f32) (x6 : FVec Ideal S1 .f32) :
    val_main_v17 (F := Ideal) x0 x1 x2 x3 x4 x5 x6 = scores x0 x1 x2 x3 x4 x5 x6 := by
  funext i
  obtain ⟨e, u, rfl⟩ : ∃ (e : Fin 32768) (u : Fin 1), i = ix2 e u := ⟨i 0, i 1, eq_ix2 i⟩
  obtain rfl : u = 0 := Subsingleton.elim _ _
  rw [val_main_v17_apply, val_main_v16_apply, val_main_cst_0_apply, val_main_v15_apply, val_main_v14_apply,
    val_main_cst_apply, val_main_v13_apply, val_main_v12_apply, val_main_v11_apply, val_main_v8_apply,
    val_main_v10_apply, val_main_v9_apply, bias2_idx]
  have hs : (∑ k : Fin 8, val_main_v7 (F := Ideal) x0 x1 x2 x3 x4 (lidx_main_v8 (ix2 e (0 : Fin 1)) k) * x5 (ridx_main_v8 (ix2 e (0 : Fin 1)) k))
      = ∑ k : Fin 8, x5 (ix2 k (0 : Fin 1)) * hiddenUnit (fun j n => x0 (ix2 n j)) (fun n => x2 (ix2 n e)) (fun n => x1 (ix2 n e))
          (fun k j => x3 (ix2 j k)) (fun k => x4 (ix1 k)) k :=
    Finset.sum_congr rfl fun k _ => by rw [layer2_lhs, layer2_rhs, hidden_eq]; exact mul_comm _ _
  rw [hs]
  show Ideal.div (Ideal.ofBits .f32 0x3F800000#32) (Ideal.ofBits .f32 0x3F800000#32 + Ideal.exp (-(_ + _))) = _
  rw [one_word]
  rfl

end Cert.ReferenceIdeal.RefValue

end
-- ==== Proof.LibColumn.lean ====
/-
  Column-shaped values read at an index given by coordinates, and a lane sum read as a finite sum.

  A row-wise reduction that keeps its axis (`sum(…, axis=1, keepdims=True)`) leaves an `[a, 1]` column. Three re-layings
  of such a column occur whenever it meets a full `[a, b]` tile: the cast of the `[a]` vector of sums to the column, the
  column broadcast along the rows of the tile, and (for the other operand's sums) the column transposed to a `[1, b]` row,
  which the library's `transpose_ix2_apply` and `broadcastTo_1b_ab_apply` already read. Each lemma states what the
  re-laid value holds at `(p, c)` in terms of the original vector, for indices built by `ix1` / `ix2`, so that it applies
  to a printed operation by unification. Generic in the extents and in the element type.
-/
import Idealize.ShloMosaic.Lib.ValueLayout
import Idealize.ShloMosaic.PureOps.Ideal.Laws

namespace Cert.Lib.Column

open Idealize.ShloMosaic Idealize.ShloMosaic.ValueIdx

variable {α : Type}

/-- An `[a]` vector cast to the column `[a, 1]` reads, at `(i, u)`, the vector's entry `i`, whatever the unit
    coordinate `u`: both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`: every column of the
    result is the operand. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the rows of an `[a, d]` block (a float `multi_reduction <add>` over axis 1 from the neutral
    accumulator), read on the extended reals at row `i`, is the finite sum of the row's `d` entries. -/
theorem rowSum_apply {φ : FTy} {a d : ℕ} (src : FVec Ideal ⟨2, ![a, d]⟩ φ) (acc : BitVec φ.bits)
    (h : (⟨2, ![a, d]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin d, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

end Cert.Lib.Column
-- ==== Proof.KernelPayload.lean ====
/-
  What the kernel body stores, read at one lane.

  At a grid point the body holds a `[8192, 256]` block of each incidence matrix (256 edges), the node table
  feature-major `[11, 8192]`, the first layer unit-major `[8, 22]` with its bias as a column `[8, 1]`, and the second layer
  as a row `[1, 8]` with its bias `[1, 1]`. It forms two products `[11, 8192] × [8192, 256]` (the tail's and the head's
  features of the 256 edges), stacks them to `[22, 256]`, multiplies by the first layer, adds the bias column along the
  lanes, takes `tanh`, multiplies by the second layer's row, adds its bias and takes the logistic function. Every product
  starts from a zero accumulator, so on the extended reals it is the plain sum over the contracted axis, the LEFT operand's
  entry times the right's. Read at lane `q` this is, term for term, the edge scorer of the block's column `q`.
-/
import proofs.«129403_j36498632081416_1_alg».proof.Proof.Gen.KernelIdeal.Skeleton
import proofs.«129403_j36498632081416_1_alg».proof.Proof.EdgeScore
import proofs.«129403_j36498632081416_1_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Cert.KernelIdeal Cert.KernelIdeal.Gen Cert.EdgeScore Cert.Lib.Column
open Idealize.ShloMosaic Idealize.ShloMosaic.ValueIdx

/-- The logistic function of a vector, at an index, is the extended reals' logistic function of the entry. -/
theorem logistic_apply {s : Shape} (x : FVec Ideal s .f32) (i : s.Idx) : logistic x i = Ideal.logistic (x i) := rfl
/-- And `tanh` of a vector is `tanh` of the entry. -/
theorem tanh_apply {s : Shape} (x : FVec Ideal s .f32) (i : s.Idx) : tanh x i = Ideal.tanh (x i) := rfl

/-! ## The gathers: `[11, 8192] × [8192, 256]` -/

theorem gatherDot_lhs_0 (i : S11x256.Idx) (q : dot_S11x8192_S8192x256_S11x256_1_0_0_1_n_n.contr.Idx) :
    (dot_S11x8192_S8192x256_S11x256_1_0_0_1_n_n.lhsIdx i q 0).val = (i 0).val := by
  unfold DotDims.lhsIdx
  rw [dif_neg (show ¬(0 : Fin S11x8192.rank) ∈ dot_S11x8192_S8192x256_S11x256_1_0_0_1_n_n.lhsBatch by decide), dif_pos (show (0 : Fin S11x8192.rank) ∈ dot_S11x8192_S8192x256_S11x256_1_0_0_1_n_n.lhsNonContracting by decide)]
  rfl
theorem gatherDot_lhs_1 (i : S11x256.Idx) (q : dot_S11x8192_S8192x256_S11x256_1_0_0_1_n_n.contr.Idx) :
    (dot_S11x8192_S8192x256_S11x256_1_0_0_1_n_n.lhsIdx i q 1).val = (q ⟨0, by decide⟩).val :=
  dot_S11x8192_S8192x256_S11x256_1_0_0_1_n_n.lhsIdx_val_of_single rfl i q
theorem gatherDot_rhs_0 (i : S11x256.Idx) (q : dot_S11x8192_S8192x256_S11x256_1_0_0_1_n_n.contr.Idx) :
    (dot_S11x8192_S8192x256_S11x256_1_0_0_1_n_n.rhsIdx i q 0).val = (q ⟨0, by decide⟩).val :=
  dot_S11x8192_S8192x256_S11x256_1_0_0_1_n_n.rhsIdx_val_of_single rfl i q
theorem gatherDot_rhs_1 (i : S11x256.Idx) (q : dot_S11x8192_S8192x256_S11x256_1_0_0_1_n_n.contr.Idx) :
    (dot_S11x8192_S8192x256_S11x256_1_0_0_1_n_n.rhsIdx i q 1).val = (i 1).val := by
  unfold DotDims.rhsIdx
  rw [dif_neg (show ¬(1 : Fin S8192x256.rank) ∈ dot_S11x8192_S8192x256_S11x256_1_0_0_1_n_n.rhsBatch by decide), dif_pos (show (1 : Fin S8192x256.rank) ∈ dot_S11x8192_S8192x256_S11x256_1_0_0_1_n_n.rhsNonContracting by decide)]
  rfl

/-- Feature `j` of lane `q`: the table's row `j` against the block's column `q`, summed over the 8192 nodes. -/
theorem gatherDot_apply (a : FVec Ideal S11x8192 .f32) (b : FVec Ideal S8192x256 .f32) (j : Fin 11) (q : Fin 256) :
    matmul dot_S11x8192_S8192x256_S11x256_1_0_0_1_n_n none a b (constant (F := Ideal) S11x256 .f32 0x00000000#32) (ix2 j q)
      = ∑ n : Fin 8192, a (ix2 j n) * b (ix2 n q) := by
  simp only [matmul]
  rw [Ideal.matmul_constant_zero_apply, ← Equiv.sum_comp (contrEquiv1 dot_S11x8192_S8192x256_S11x256_1_0_0_1_n_n 8192 rfl rfl).symm]
  refine Finset.sum_congr rfl fun k _ => ?_
  have hk := contrEquiv1_symm_val dot_S11x8192_S8192x256_S11x256_1_0_0_1_n_n 8192 rfl rfl k
  have el : dot_S11x8192_S8192x256_S11x256_1_0_0_1_n_n.lhsIdx (ix2 j q) ((contrEquiv1 dot_S11x8192_S8192x256_S11x256_1_0_0_1_n_n 8192 rfl rfl).symm k) = ix2 j k := funext fun a => Fin.ext (by
    match a with
    | ⟨0, _⟩ => exact gatherDot_lhs_0 _ _
    | ⟨1, _⟩ => exact (gatherDot_lhs_1 _ _).trans hk)
  have er : dot_S11x8192_S8192x256_S11x256_1_0_0_1_n_n.rhsIdx (ix2 j q) ((contrEquiv1 dot_S11x8192_S8192x256_S11x256_1_0_0_1_n_n 8192 rfl rfl).symm k) = ix2 k q := funext fun a => Fin.ext (by
    match a with
    | ⟨0, _⟩ => exact (gatherDot_rhs_0 _ _).trans hk
    | ⟨1, _⟩ => exact gatherDot_rhs_1 _ _)
  rw [el, er]

/-! ## The first layer: `[8, 22] × [22, 256]` -/

theorem layer1Dot_lhs_0 (i : S8x256.Idx) (q : dot_S8x22_S22x256_S8x256_1_0_0_1_n_n.contr.Idx) :
    (dot_S8x22_S22x256_S8x256_1_0_0_1_n_n.lhsIdx i q 0).val = (i 0).val := by
  unfold DotDims.lhsIdx
  rw [dif_neg (show ¬(0 : Fin S8x22.rank) ∈ dot_S8x22_S22x256_S8x256_1_0_0_1_n_n.lhsBatch by decide), dif_pos (show (0 : Fin S8x22.rank) ∈ dot_S8x22_S22x256_S8x256_1_0_0_1_n_n.lhsNonContracting by decide)]
  rfl
theorem layer1Dot_lhs_1 (i : S8x256.Idx) (q : dot_S8x22_S22x256_S8x256_1_0_0_1_n_n.contr.Idx) :
    (dot_S8x22_S22x256_S8x256_1_0_0_1_n_n.lhsIdx i q 1).val = (q ⟨0, by decide⟩).val :=
  dot_S8x22_S22x256_S8x256_1_0_0_1_n_n.lhsIdx_val_of_single rfl i q
theorem layer1Dot_rhs_0 (i : S8x256.Idx) (q : dot_S8x22_S22x256_S8x256_1_0_0_1_n_n.contr.Idx) :
    (dot_S8x22_S22x256_S8x256_1_0_0_1_n_n.rhsIdx i q 0).val = (q ⟨0, by decide⟩).val :=
  dot_S8x22_S22x256_S8x256_1_0_0_1_n_n.rhsIdx_val_of_single rfl i q
theorem layer1Dot_rhs_1 (i : S8x256.Idx) (q : dot_S8x22_S22x256_S8x256_1_0_0_1_n_n.contr.Idx) :
    (dot_S8x22_S22x256_S8x256_1_0_0_1_n_n.rhsIdx i q 1).val = (i 1).val := by
  unfold DotDims.rhsIdx
  rw [dif_neg (show ¬(1 : Fin S22x256.rank) ∈ dot_S8x22_S22x256_S8x256_1_0_0_1_n_n.rhsBatch by decide), dif_pos (show (1 : Fin S22x256.rank) ∈ dot_S8x22_S22x256_S8x256_1_0_0_1_n_n.rhsNonContracting by decide)]
  rfl

/-- Unit `k` of lane `q` before the bias: the unit's 22 weights against the lane's 22 features. -/
theorem layer1Dot_apply (a : FVec Ideal S8x22 .f32) (b : FVec Ideal S22x256 .f32) (k : Fin 8) (q : Fin 256) :
    matmul dot_S8x22_S22x256_S8x256_1_0_0_1_n_n none a b (constant (F := Ideal) S8x256 .f32 0x00000000#32) (ix2 k q)
      = ∑ j : Fin 22, a (ix2 k j) * b (ix2 j q) := by
  simp only [matmul]
  rw [Ideal.matmul_constant_zero_apply, ← Equiv.sum_comp (contrEquiv1 dot_S8x22_S22x256_S8x256_1_0_0_1_n_n 22 rfl rfl).symm]
  refine Finset.sum_congr rfl fun j _ => ?_
  have hj := contrEquiv1_symm_val dot_S8x22_S22x256_S8x256_1_0_0_1_n_n 22 rfl rfl j
  have el : dot_S8x22_S22x256_S8x256_1_0_0_1_n_n.lhsIdx (ix2 k q) ((contrEquiv1 dot_S8x22_S22x256_S8x256_1_0_0_1_n_n 22 rfl rfl).symm j) = ix2 k j := funext fun a => Fin.ext (by
    match a with
    | ⟨0, _⟩ => exact layer1Dot_lhs_0 _ _
    | ⟨1, _⟩ => exact (layer1Dot_lhs_1 _ _).trans hj)
  have er : dot_S8x22_S22x256_S8x256_1_0_0_1_n_n.rhsIdx (ix2 k q) ((contrEquiv1 dot_S8x22_S22x256_S8x256_1_0_0_1_n_n 22 rfl rfl).symm j) = ix2 j q := funext fun a => Fin.ext (by
    match a with
    | ⟨0, _⟩ => exact (layer1Dot_rhs_0 _ _).trans hj
    | ⟨1, _⟩ => exact layer1Dot_rhs_1 _ _)
  rw [el, er]

/-! ## The second layer: `[1, 8] × [8, 256]` -/

theorem layer2Dot_lhs_0 (i : S1x256.Idx) (q : dot_S1x8_S8x256_S1x256_1_0_0_1_n_n.contr.Idx) :
    (dot_S1x8_S8x256_S1x256_1_0_0_1_n_n.lhsIdx i q 0).val = (i 0).val := by
  unfold DotDims.lhsIdx
  rw [dif_neg (show ¬(0 : Fin S1x8.rank) ∈ dot_S1x8_S8x256_S1x256_1_0_0_1_n_n.lhsBatch by decide), dif_pos (show (0 : Fin S1x8.rank) ∈ dot_S1x8_S8x256_S1x256_1_0_0_1_n_n.lhsNonContracting by decide)]
  rfl
theorem layer2Dot_lhs_1 (i : S1x256.Idx) (q : dot_S1x8_S8x256_S1x256_1_0_0_1_n_n.contr.Idx) :
    (dot_S1x8_S8x256_S1x256_1_0_0_1_n_n.lhsIdx i q 1).val = (q ⟨0, by decide⟩).val :=
  dot_S1x8_S8x256_S1x256_1_0_0_1_n_n.lhsIdx_val_of_single rfl i q
theorem layer2Dot_rhs_0 (i : S1x256.Idx) (q : dot_S1x8_S8x256_S1x256_1_0_0_1_n_n.contr.Idx) :
    (dot_S1x8_S8x256_S1x256_1_0_0_1_n_n.rhsIdx i q 0).val = (q ⟨0, by decide⟩).val :=
  dot_S1x8_S8x256_S1x256_1_0_0_1_n_n.rhsIdx_val_of_single rfl i q
theorem layer2Dot_rhs_1 (i : S1x256.Idx) (q : dot_S1x8_S8x256_S1x256_1_0_0_1_n_n.contr.Idx) :
    (dot_S1x8_S8x256_S1x256_1_0_0_1_n_n.rhsIdx i q 1).val = (i 1).val := by
  unfold DotDims.rhsIdx
  rw [dif_neg (show ¬(1 : Fin S8x256.rank) ∈ dot_S1x8_S8x256_S1x256_1_0_0_1_n_n.rhsBatch by decide), dif_pos (show (1 : Fin S8x256.rank) ∈ dot_S1x8_S8x256_S1x256_1_0_0_1_n_n.rhsNonContracting by decide)]
  rfl

/-- The score's argument at lane `q` before the bias: the row of eight output weights against the lane's eight units. -/
theorem layer2Dot_apply (a : FVec Ideal S1x8 .f32) (b : FVec Ideal S8x256 .f32) (u : Fin 1) (q : Fin 256) :
    matmul dot_S1x8_S8x256_S1x256_1_0_0_1_n_n none a b (constant (F := Ideal) S1x256 .f32 0x00000000#32) (ix2 u q)
      = ∑ k : Fin 8, a (ix2 u k) * b (ix2 k q) := by
  simp only [matmul]
  rw [Ideal.matmul_constant_zero_apply, ← Equiv.sum_comp (contrEquiv1 dot_S1x8_S8x256_S1x256_1_0_0_1_n_n 8 rfl rfl).symm]
  refine Finset.sum_congr rfl fun k _ => ?_
  have hk := contrEquiv1_symm_val dot_S1x8_S8x256_S1x256_1_0_0_1_n_n 8 rfl rfl k
  have el : dot_S1x8_S8x256_S1x256_1_0_0_1_n_n.lhsIdx (ix2 u q) ((contrEquiv1 dot_S1x8_S8x256_S1x256_1_0_0_1_n_n 8 rfl rfl).symm k) = ix2 u k := funext fun a => Fin.ext (by
    match a with
    | ⟨0, _⟩ => exact layer2Dot_lhs_0 _ _
    | ⟨1, _⟩ => exact (layer2Dot_lhs_1 _ _).trans hk)
  have er : dot_S1x8_S8x256_S1x256_1_0_0_1_n_n.rhsIdx (ix2 u q) ((contrEquiv1 dot_S1x8_S8x256_S1x256_1_0_0_1_n_n 8 rfl rfl).symm k) = ix2 k q := funext fun a => Fin.ext (by
    match a with
    | ⟨0, _⟩ => exact (layer2Dot_rhs_0 _ _).trans hk
    | ⟨1, _⟩ => exact layer2Dot_rhs_1 _ _)
  rw [el, er]

/-! ## The body's value at a lane -/

/-- The stacked features at `(j, q)`: rows `0 … 10` are the tail's product, rows `11 … 21` the head's. -/
theorem features_apply (xt : FVec Ideal S11x8192 .f32) (ro ri : FVec Ideal S8192x256 .f32)
    (hc : Shape.Concatenates [S11x256, S11x256] S22x256 0) (j : Fin 22) (q : Fin 256) :
    concatenate S22x256 0
        [⟨S11x256, matmul dot_S11x8192_S8192x256_S11x256_1_0_0_1_n_n none xt ro (constant (F := Ideal) S11x256 .f32 0x00000000#32)⟩,
         ⟨S11x256, matmul dot_S11x8192_S8192x256_S11x256_1_0_0_1_n_n none xt ri (constant (F := Ideal) S11x256 .f32 0x00000000#32)⟩] hc (ix2 j q)
      = gather (fun j n => xt (ix2 j n)) (fun n => ro (ix2 n q)) (fun n => ri (ix2 n q)) j := by
  unfold gather
  by_cases h : j.val < 11
  · rw [dif_pos h,
      concatenate_pair_apply_left (t := S22x256) (s₁ := S11x256) (s₂ := S11x256) _ _ _ hc (ix2 j q) rfl (ix2 (⟨j.val, h⟩ : Fin 11) q)
        (fun b => by match b with | ⟨0, _⟩ => rfl | ⟨1, _⟩ => rfl),
      gatherDot_apply]
  · have hj : j.val - 11 < 11 := by have := j.isLt; omega
    rw [dif_neg h,
      concatenate_pair_apply_right (t := S22x256) (s₁ := S11x256) (s₂ := S11x256) _ _ _ hc (ix2 j q) rfl rfl (ix2 (⟨j.val - 11, hj⟩ : Fin 11) q)
        (fun b => by
          match b with
          | ⟨0, _⟩ => intro hne; exact absurd rfl hne
          | ⟨1, _⟩ => intro _; rfl)
        (by show (j.val - 11) + 11 = j.val; omega),
      gatherDot_apply]

/-- The hidden layer at `(k, q)`. -/
theorem hidden_apply (xt : FVec Ideal S11x8192 .f32) (ro ri : FVec Ideal S8192x256 .f32) (w1t : FVec Ideal S8x22 .f32)
    (b1c : FVec Ideal S8x1 .f32) (hc : Shape.Concatenates [S11x256, S11x256] S22x256 0) (hb : S8x1.Broadcasts S8x256)
    (k : Fin 8) (q : Fin 256) :
    tanh (addf (matmul dot_S8x22_S22x256_S8x256_1_0_0_1_n_n none w1t
        (concatenate S22x256 0
          [⟨S11x256, matmul dot_S11x8192_S8192x256_S11x256_1_0_0_1_n_n none xt ro (constant (F := Ideal) S11x256 .f32 0x00000000#32)⟩,
           ⟨S11x256, matmul dot_S11x8192_S8192x256_S11x256_1_0_0_1_n_n none xt ri (constant (F := Ideal) S11x256 .f32 0x00000000#32)⟩] hc)
        (constant (F := Ideal) S8x256 .f32 0x00000000#32)) (broadcastTo S8x256 b1c hb)) (ix2 k q)
      = hiddenUnit (fun j n => xt (ix2 j n)) (fun n => ro (ix2 n q)) (fun n => ri (ix2 n q)) (fun k j => w1t (ix2 k j))
          (fun k => b1c (ix2 k (0 : Fin 1))) k := by
  rw [tanh_apply, addf_apply, layer1Dot_apply, broadcastTo_a1_ab_apply]
  unfold hiddenUnit
  refine congrArg (fun s => Ideal.tanh (s + b1c (ix2 k (0 : Fin 1)))) (Finset.sum_congr rfl fun j _ => ?_)
  rw [features_apply]

/-- THE BODY'S STORE at lane `q` is the edge scorer of column `q` of the two incidence blocks. -/
theorem payload_apply (v0 v1 : FVec Ideal S8192x256 .f32) (v2 : FVec Ideal S11x8192 .f32) (v7 : FVec Ideal S8x22 .f32)
    (v10 : FVec Ideal S8x1 .f32) (v15 : FVec Ideal S1x8 .f32) (v18 : FVec Ideal S1x1 .f32) (u : Fin 1) (q : Fin 256) :
    k0_pay1 (F := Ideal) v0 v1 v2 v7 v10 v15 v18 (ix2 u q)
      = edgeScore (fun j n => v2 (ix2 j n)) (fun n => v0 (ix2 n q)) (fun n => v1 (ix2 n q)) (fun k j => v7 (ix2 k j))
          (fun k => v10 (ix2 k (0 : Fin 1))) (fun k => v15 (ix2 (0 : Fin 1) k)) (v18 (ix2 (0 : Fin 1) (0 : Fin 1))) := by
  obtain rfl : u = 0 := Subsingleton.elim _ _
  unfold k0_pay1
  simp only [shapeCast_self]
  rw [logistic_apply, addf_apply, layer2Dot_apply, broadcastTo_a1_ab_apply]
  unfold edgeScore
  refine congrArg (fun s => Ideal.logistic (s + v18 (ix2 (0 : Fin 1) (0 : Fin 1)))) (Finset.sum_congr rfl fun k _ => ?_)
  rw [hidden_apply, shapeCast_self]

end Cert.KernelIdeal.Payload

end
-- ==== Proof.KernelBlocks.lean ====
/-
  From the blocks to the whole row of scores.

  The kernel runs at 128 grid points. At point `t` it sees columns `256 t … 256 t + 255` of the two incidence matrices,
  the five small arrays whole, and writes lanes `256 t … 256 t + 255` of a `[1, 32768]` row. The small arrays are
  re-layings of the arguments made before the launch: the node table, the first layer and the second layer transposed,
  the two biases cast to columns. Reading each block where the launch puts it turns the body's value at lane `q` of point
  `t` into the edge scorer of edge `256 t + q` over the ARGUMENT arrays; the 128 blocks tile the row, so after the run the
  row holds every edge's score.
-/
import proofs.«129403_j36498632081416_1_alg».proof.Proof.Gen.KernelIdeal.Frame
import proofs.«129403_j36498632081416_1_alg».proof.Proof.KernelPayload
import Idealize.ShloMosaic.Lib.StableHlo.Run
import Idealize.ShloMosaic.Lib.Pipeline.Value
import Idealize.ShloMosaic.Lib.ValueLayout

set_option maxRecDepth 16384

noncomputable section

open scoped BigOperators

namespace Cert.KernelIdeal.Blocks

open Cert.KernelIdeal Cert.KernelIdeal.Gen Cert.KernelIdeal.Payload Cert.EdgeScore Cert.Lib.Column
open Idealize.ShloMosaic Idealize.ShloMosaic.TcCoe Idealize.SL.Sem Idealize.ShloMosaic.StableHlo Idealize.ShloMosaic.ValueIdx
open Idealize.ShloMosaic.Pipeline (Dat)

/-- The scores laid out as the kernel writes them: one row, edge `e` at lane `e`. -/
def scoresRow (X : FVec Ideal S8192x11 .f32) (Ri Ro : FVec Ideal S8192x32768 .f32) (W1 : FVec Ideal S22x8 .f32)
    (b1 : FVec Ideal S8 .f32) (W2 : FVec Ideal S8x1 .f32) (b2 : FVec Ideal S1 .f32) : FVec Ideal S1x32768 .f32 :=
  fun i => edgeScore (fun j n => X (ix2 n j)) (fun n => Ro (ix2 n (i 1))) (fun n => Ri (ix2 n (i 1)))
    (fun k j => W1 (ix2 j k)) (fun k => b1 (ix1 k)) (fun k => W2 (ix2 k (0 : Fin 1))) (b2 (ix1 (0 : Fin 1)))

/-- The body's value at lane `q` of its `[1, 256]` block is the score of the edge at lane `i 1` of the row, as
    soon as the seven loaded blocks read, at coordinates, what the seven argument arrays hold for that edge. -/
theorem lane_score (x0 x1 : FVec Ideal S8192x256 .f32) (x2 : FVec Ideal S11x8192 .f32) (x3 : FVec Ideal S8x22 .f32)
    (x4 : FVec Ideal S8x1 .f32) (x5 : FVec Ideal S1x8 .f32) (x6 : FVec Ideal S1x1 .f32) (u : Fin 1) (q : Fin 256)
    (X : FVec Ideal S8192x11 .f32) (Ri Ro : FVec Ideal S8192x32768 .f32) (W1 : FVec Ideal S22x8 .f32)
    (b1 : FVec Ideal S8 .f32) (W2 : FVec Ideal S8x1 .f32) (b2 : FVec Ideal S1 .f32) (i : S1x32768.Idx)
    (h0 : ∀ n : Fin 8192, x0 (ix2 n q) = Ro (ix2 n (i 1)))
    (h1 : ∀ n : Fin 8192, x1 (ix2 n q) = Ri (ix2 n (i 1)))
    (h2 : ∀ (j : Fin 11) (n : Fin 8192), x2 (ix2 j n) = X (ix2 n j))
    (h3 : ∀ (k : Fin 8) (j : Fin 22), x3 (ix2 k j) = W1 (ix2 j k))
    (h4 : ∀ k : Fin 8, x4 (ix2 k (0 : Fin 1)) = b1 (ix1 k))
    (h5 : ∀ k : Fin 8, x5 (ix2 (0 : Fin 1) k) = W2 (ix2 k (0 : Fin 1)))
    (h6 : x6 (ix2 (0 : Fin 1) (0 : Fin 1)) = b2 (ix1 (0 : Fin 1))) :
    k0_pay1 (F := Ideal) x0 x1 x2 x3 x4 x5 x6 (ix2 u q) = scoresRow X Ri Ro W1 b1 W2 b2 i := by
  rw [payload_apply]
  unfold scoresRow
  simp only [h0, h1, h2, h3, h4, h5, h6]

variable (m : (ℓ : Loc nD τ sig) → Buf (Elt Ideal) ℓ)

/-! ## The argument arrays, and the five arrays written before the launch -/

abbrev argX (c : Dev nD) : FVec Ideal S8192x11 .f32 := m ((c : Thread nD τ).loc main_arg0)
abbrev argRi (c : Dev nD) : FVec Ideal S8192x32768 .f32 := m ((c : Thread nD τ).loc main_arg1)
abbrev argRo (c : Dev nD) : FVec Ideal S8192x32768 .f32 := m ((c : Thread nD τ).loc main_arg2)
abbrev argW1 (c : Dev nD) : FVec Ideal S22x8 .f32 := m ((c : Thread nD τ).loc main_arg3)
abbrev argB1 (c : Dev nD) : FVec Ideal S8 .f32 := m ((c : Thread nD τ).loc main_arg4)
abbrev argW2 (c : Dev nD) : FVec Ideal S8x1 .f32 := m ((c : Thread nD τ).loc main_arg5)
abbrev argB2 (c : Dev nD) : FVec Ideal S1 .f32 := m ((c : Thread nD τ).loc main_arg6)

/-- The node table as the launch finds it is the argument transposed: entry `(j, n)` is `X[n, j]`. -/
theorem xt_entry (c : Dev nD) (j : Fin 11) (n : Fin 8192) :
    (V m c main_v0 : S11x8192.Idx → EReal) (ix2 j n) = argX m c (ix2 n j) := by
  have e : (V m c main_v0 : S11x8192.Idx → EReal)
      = transpose S11x8192 [1, 0] (argX m c) Facts₀.transposes_S8192x11_S11x8192_1_0 := by
    show StableHlo.after hostOps0 (fun b => m (c, b)) (Proc.devRef .tc main_v0) = _
    after_results
  rw [e]
  exact transpose_ix2_apply _ _ j n

/-- The first layer as the launch finds it: entry `(k, j)` is `W1[j, k]`. -/
theorem w1t_entry (c : Dev nD) (k : Fin 8) (j : Fin 22) :
    (V m c main_v1 : S8x22.Idx → EReal) (ix2 k j) = argW1 m c (ix2 j k) := by
  have e : (V m c main_v1 : S8x22.Idx → EReal)
      = transpose S8x22 [1, 0] (argW1 m c) Facts₀.transposes_S22x8_S8x22_1_0 := by
    show StableHlo.after hostOps0 (fun b => m (c, b)) (Proc.devRef .tc main_v1) = _
    after_results
  rw [e]
  exact transpose_ix2_apply _ _ k j

/-- The second layer as a row: entry `(0, k)` is `W2[k, 0]`. -/
theorem w2t_entry (c : Dev nD) (u : Fin 1) (k : Fin 8) :
    (V m c main_v2 : S1x8.Idx → EReal) (ix2 u k) = argW2 m c (ix2 k u) := by
  have e : (V m c main_v2 : S1x8.Idx → EReal)
      = transpose S1x8 [1, 0] (argW2 m c) Facts₀.transposes_S8x1_S1x8_1_0 := by
    show StableHlo.after hostOps0 (fun b => m (c, b)) (Proc.devRef .tc main_v2) = _
    after_results
  rw [e]
  exact transpose_ix2_apply _ _ u k

/-- The first bias as a column: entry `(k, 0)` is `b1[k]`. -/
theorem b1c_entry (c : Dev nD) (k : Fin 8) (u : Fin 1) :
    (V m c main_v3 : S8x1.Idx → EReal) (ix2 k u) = argB1 m c (ix1 k) := by
  have e : (V m c main_v3 : S8x1.Idx → EReal) = shapeCast S8x1 (argB1 m c) Facts₀.shapeCasts_S8_S8x1 := by
    show StableHlo.after hostOps0 (fun b => m (c, b)) (Proc.devRef .tc main_v3) = _
    after_results
    rfl
  rw [e]
  exact shapeCast_a_a1_apply _ _ k u

/-- The second bias as a `[1, 1]` array. -/
theorem b2c_entry (c : Dev nD) (u u' : Fin 1) :
    (V m c main_v4 : S1x1.Idx → EReal) (ix2 u u') = argB2 m c (ix1 u) := by
  have e : (V m c main_v4 : S1x1.Idx → EReal) = shapeCast S1x1 (argB2 m c) Facts₀.shapeCasts_S1_S1x1 := by
    show StableHlo.after hostOps0 (fun b => m (c, b)) (Proc.devRef .tc main_v4) = _
    after_results
    rfl
  rw [e]
  exact shapeCast_a_a1_apply _ _ u u'

/-! ## Where each window's block sits -/

/-- The index maps over the grid: the two incidence windows and the output window move along the edge axis with the point;
    the five small windows stay at the origin. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = t.val :=
  (by decide +kernel : ∀ t : Fin grid0.N, _)

/-- The tail incidence block at point `t`: row `n`, lane `q` is `Ro[n, 256 t + q]`. -/
theorem ro_block (c : Dev nD) (t : Fin cfg0.N) (x : S8192x256.Idx) (k : S8192x32768.Idx)
    (hk0 : (k 0).val = (x 0).val) (hk1 : (k 1).val = t.val * 256 + (x 1).val) :
    (iblk m c 0 t : Vec Ideal S8192x256 .f32) x = argRo m c k := by
  obtain ⟨e0, e1, -⟩ := idx_facts t
  unfold iblk
  rw [View.read_apply]
  show V m c main_arg2 _ = _
  rw [V_main_arg2]
  refine congrArg (m ((c : Thread nD τ).loc main_arg2)) (funext fun a => Fin.ext ?_)
  match a with
  | ⟨0, _⟩ => show win0_0.index t (0 : Fin 2) * 8192 + 1 * (x 0).val = (k 0).val; rw [e0, hk0]; omega
  | ⟨1, _⟩ => show win0_0.index t (1 : Fin 2) * 256 + 1 * (x 1).val = (k 1).val; rw [e1, hk1]; omega

/-- The head incidence block at point `t`: row `n`, lane `q` is `Ri[n, 256 t + q]`. -/
theorem ri_block (c : Dev nD) (t : Fin cfg0.N) (x : S8192x256.Idx) (k : S8192x32768.Idx)
    (hk0 : (k 0).val = (x 0).val) (hk1 : (k 1).val = t.val * 256 + (x 1).val) :
    (iblk m c 1 t : Vec Ideal S8192x256 .f32) x = argRi m c k := by
  obtain ⟨-, -, e0, e1, -⟩ := idx_facts t
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t (0 : Fin 2) * 8192 + 1 * (x 0).val = (k 0).val; rw [e0, hk0]; omega
  | ⟨1, _⟩ => show win0_1.index t (1 : Fin 2) * 256 + 1 * (x 1).val = (k 1).val; rw [e1, hk1]; omega

/-- The node table's block is the whole transposed table at every point. -/
theorem xt_block (c : Dev nD) (t : Fin cfg0.N) (j : Fin 11) (n : Fin 8192) :
    (iblk m c 2 t : Vec Ideal S11x8192 .f32) (ix2 j n) = argX m c (ix2 n j) := by
  obtain ⟨-, -, -, -, e0, e1, -⟩ := idx_facts t
  unfold iblk
  rw [View.read_apply]
  refine Eq.trans (congrArg (V m c main_v0 : S11x8192.Idx → EReal) (funext fun a => Fin.ext ?_)) (xt_entry m c j n)
  match a with
  | ⟨0, _⟩ => show win0_2.index t (0 : Fin 2) * 11 + 1 * j.val = j.val; rw [e0]; omega
  | ⟨1, _⟩ => show win0_2.index t (1 : Fin 2) * 8192 + 1 * n.val = n.val; rw [e1]; omega

/-- The first layer's block is the whole transposed layer. -/
theorem w1t_block (c : Dev nD) (t : Fin cfg0.N) (k : Fin 8) (j : Fin 22) :
    (iblk m c 3 t : Vec Ideal S8x22 .f32) (ix2 k j) = argW1 m c (ix2 j k) := by
  obtain ⟨-, -, -, -, -, -, e0, e1, -⟩ := idx_facts t
  unfold iblk
  rw [View.read_apply]
  refine Eq.trans (congrArg (V m c main_v1 : S8x22.Idx → EReal) (funext fun a => Fin.ext ?_)) (w1t_entry m c k j)
  match a with
  | ⟨0, _⟩ => show win0_3.index t (0 : Fin 2) * 8 + 1 * k.val = k.val; rw [e0]; omega
  | ⟨1, _⟩ => show win0_3.index t (1 : Fin 2) * 22 + 1 * j.val = j.val; rw [e1]; omega

/-- The first bias's block is the whole column. -/
theorem b1c_block (c : Dev nD) (t : Fin cfg0.N) (k : Fin 8) (u : Fin 1) :
    (iblk m c 4 t : Vec Ideal S8x1 .f32) (ix2 k u) = argB1 m c (ix1 k) := by
  obtain ⟨-, -, -, -, -, -, -, -, e0, e1, -⟩ := idx_facts t
  unfold iblk
  rw [View.read_apply]
  refine Eq.trans (congrArg (V m c main_v3 : S8x1.Idx → EReal) (funext fun a => Fin.ext ?_)) (b1c_entry m c k u)
  match a with
  | ⟨0, _⟩ => show win0_4.index t (0 : Fin 2) * 8 + 1 * k.val = k.val; rw [e0]; omega
  | ⟨1, _⟩ => show win0_4.index t (1 : Fin 2) * 1 + 1 * u.val = u.val; rw [e1]; omega

/-- The second layer's block is the whole row. -/
theorem w2t_block (c : Dev nD) (t : Fin cfg0.N) (u : Fin 1) (k : Fin 8) :
    (iblk m c 5 t : Vec Ideal S1x8 .f32) (ix2 u k) = argW2 m c (ix2 k u) := by
  obtain ⟨-, -, -, -, -, -, -, -, -, -, e0, e1, -⟩ := idx_facts t
  unfold iblk
  rw [View.read_apply]
  refine Eq.trans (congrArg (V m c main_v2 : S1x8.Idx → EReal) (funext fun a => Fin.ext ?_)) (w2t_entry m c u k)
  match a with
  | ⟨0, _⟩ => show win0_5.index t (0 : Fin 2) * 1 + 1 * u.val = u.val; rw [e0]; omega
  | ⟨1, _⟩ => show win0_5.index t (1 : Fin 2) * 8 + 1 * k.val = k.val; rw [e1]; omega

/-- The second bias's block is the `[1, 1]` array. -/
theorem b2c_block (c : Dev nD) (t : Fin cfg0.N) (u u' : Fin 1) :
    (iblk m c 6 t : Vec Ideal S1x1 .f32) (ix2 u u') = argB2 m c (ix1 u) := by
  obtain ⟨-, -, -, -, -, -, -, -, -, -, -, -, e0, e1, -⟩ := idx_facts t
  unfold iblk
  rw [View.read_apply]
  refine Eq.trans (congrArg (V m c main_v4 : S1x1.Idx → EReal) (funext fun a => Fin.ext ?_)) (b2c_entry m c u u')
  match a with
  | ⟨0, _⟩ => show win0_6.index t (0 : Fin 2) * 1 + 1 * u.val = u.val; rw [e0]; omega
  | ⟨1, _⟩ => show win0_6.index t (1 : Fin 2) * 1 + 1 * u'.val = u'.val; rw [e1]; omega

/-! ## What a point writes back, and the whole row -/

theorem hz : (![0, 0] : Fin 2 → Nat) = fun _ => 0 := funext fun a => by fin_cases a <;> rfl

/-- WHAT POINT `t` WRITES BACK is block `t` of the row of scores of the argument arrays. -/
theorem flushed_eq (c : Dev nD) (t : Fin cfg0.N) :
    (dats m 0 c).flushed 7 t = ((cfg0.win 7).blk t).view.read (Elt Ideal)
      (scoresRow (argX m c) (argRi m c) (argRo m c) (argW1 m c) (argB1 m c) (argW2 m c) (argB2 m c)) := by
  show (cfg0.win 7).cut (grid0.coords t) ((dats m 0 c).after 7 t) = _
  rw [after0_7]
  unfold out0_7
  rw [View.canon_unit_zero hz]
  simp only [View.ld_unit_zero (S := S8192x256) hz, View.ld_unit_zero (S := S11x8192) hz, View.ld_unit_zero (S := S8x22) hz,
    View.ld_unit_zero (S := S8x1) hz, View.ld_unit_zero (S := S1x8) hz, View.ld_unit_zero (S := S1x1) hz]
  obtain ⟨-, -, -, -, -, -, -, -, -, -, -, -, -, -, e0, e1⟩ := idx_facts t
  refine funext fun (y : S1x256.Idx) => ?_
  obtain ⟨u, q, rfl⟩ : ∃ (u : Fin 1) (q : Fin 256), y = ix2 u q := ⟨y 0, y 1, eq_ix2 y⟩
  rw [View.read_apply]
  have he : ((((cfg0.win 7).blk t).view.emb (ix2 u q) : S1x32768.Idx) 1).val = t.val * 256 + q.val := by
    show win0_7.index t (1 : Fin 2) * 256 + 1 * q.val = _
    rw [e1]; omega
  exact lane_score (iblk m c 0 t) (iblk m c 1 t) (iblk m c 2 t) (iblk m c 3 t) (iblk m c 4 t) (iblk m c 5 t) (iblk m c 6 t) u q
    (argX m c) (argRi m c) (argRo m c) (argW1 m c) (argB1 m c) (argW2 m c) (argB2 m c) _
    (fun n => ro_block m c t (ix2 n q) (ix2 n _) rfl he)
    (fun n => ri_block m c t (ix2 n q) (ix2 n _) rfl he)
    (fun j n => xt_block m c t j n) (fun k j => w1t_block m c t k j) (fun k => b1c_block m c t k 0)
    (fun k => w2t_block m c t 0 k) (b2c_block m c t 0 0)

/-- An index of the row is in point `t`'s block iff each coordinate is in the block's range on its axis. -/
theorem mem_blk (t : Fin cfg0.N) (i : S1x32768.Idx) :
    i ∈ ((cfg0.win 7).blk t).view.set ↔ ∀ a : Fin 2, win0_7.index t a * S1x256.size a ≤ (i a).val ∧ (i a).val < win0_7.index t a * S1x256.size a + S1x256.size a := by
  show i ∈ ((View.whole main_v5).slice (win0_7.rect t)).set ↔ _
  rw [View.set_slice_whole, Rect.mem_set_unit]
  exact Iff.rfl

/-- Lane `l` of the row lies in the block of point `l / 256`, and every point writes its block back. -/
theorem cover (i : S1x32768.Idx) : ∃ t : Fin cfg0.N, (cfg0.win 7).flush t = true ∧ i ∈ ((cfg0.win 7).blk t).view.set := by
  have hN : cfg0.N = 128 := N_0
  have h0 : (i 0).val < 1 := (i 0).isLt
  have h1 : (i 1).val < 32768 := (i 1).isLt
  obtain ⟨t, ht⟩ : ∃ t : Fin cfg0.N, t.val = (i 1).val / 256 := ⟨⟨(i 1).val / 256, by rw [hN]; omega⟩, rfl⟩
  refine ⟨t, flush0_7 t, ?_⟩
  rw [mem_blk]
  obtain ⟨-, -, -, -, -, -, -, -, -, -, -, -, -, -, e0, e1⟩ := idx_facts t
  intro a
  match a with
  | ⟨0, _⟩ => show win0_7.index t (0 : Fin 2) * 1 ≤ (i 0).val ∧ (i 0).val < win0_7.index t (0 : Fin 2) * 1 + 1; rw [e0]; omega
  | ⟨1, _⟩ => show win0_7.index t (1 : Fin 2) * 256 ≤ (i 1).val ∧ (i 1).val < win0_7.index t (1 : Fin 2) * 256 + 256; rw [e1, ht]; omega

/-- THE ROW AFTER THE RUN holds every edge's score. -/
theorem final (c : Dev nD) : (dats m 0 c).arrAt 7 cfg0.N
    = scoresRow (argX m c) (argRi m c) (argRo m c) (argW1 m c) (argB1 m c) (argW2 m c) (argB2 m c) :=
  (dats m 0 c).arrAt_eq_of_cover 7 _ (fun t _ => flushed_eq m c t) cover

end Cert.KernelIdeal.Blocks

end
-- ==== Proof.KernelRun.lean ====
/-
  The idealized kernel's run, read: its result is the array of scores.

  After the launch the program transposes the `[1, 32768]` row the kernel filled into the `[32768, 1]` result. The row
  holds every edge's score, so the result at `(e, 0)` is the score of edge `e`: the same array the scorer defines. The
  seven argument arrays end as they began: the two incidence matrices are read-only windows of the launch, the other
  five are touched by no operation after their re-laying.
-/
import proofs.«129403_j36498632081416_1_alg».proof.Proof.KernelBlocks

noncomputable section

namespace Cert.KernelIdeal.Run

open Cert.KernelIdeal Cert.KernelIdeal.Gen Cert.KernelIdeal.Blocks Cert.EdgeScore
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- The result buffer after the line that follows the launch: the filled row transposed, which is the array of scores. -/
theorem result_eq (c : Dev nD) :
    Pipeline.afterTail₀ cfgs (dats m) 0 (V0 m) [hostOps1] c main_v6
      = scores (argX m c) (argRi m c) (argRo m c) (argW1 m c) (argB1 m c) (argW2 m c) (argB2 m c) := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.devRef .tc main_v5)
      = scoresRow (argX m c) (argRi m c) (argRo m c) (argW1 m c) (argB1 m c) (argW2 m c) (argB2 m c) :=
    (Pipeline.withArrays_arr spec0 launch0.win.arr_inj c _ _ 7).trans (final m c)
  rw [hw]
  funext i
  obtain ⟨e, u, rfl⟩ : ∃ (e : Fin 32768) (u : Fin 1), i = ix2 e u := ⟨i 0, i 1, eq_ix2 i⟩
  rw [transpose_ix2_apply]
  rfl

/-- Every weakly fair execution of the idealized kernel program terminates with the result buffer at the array of
    scores of the arguments, and the arguments unchanged. -/
theorem run : θ_run defs (onTc (τ := τ) (main (F := Ideal))) ⟨m, fun _ => 0, ρ⟩ fun r => ∀ c : Dev nD,
      r.2.mem ((c.tc : Thread nD τ).loc main_v6)
        = scores (argX m c) (argRi m c) (argRo m c) (argW1 m c) (argB1 m c) (argW2 m c) (argB2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
      ⟨((h c).2 main_v6 (Pipeline.mem_restRefs_of main_v6 (by decide) (by decide))).trans (result_eq m c),
       ((h c).2 main_arg0 (Pipeline.mem_restRefs_of main_arg0 (by decide) (by decide))).trans (W_main_arg0 m (dats m) c),
       ((h c).1 1).trans (((dats m 0 c).arrAt_in 1 rfl _).trans ((A_eq m c 1).trans (V_main_arg1 m c))),
       ((h c).1 0).trans (((dats m 0 c).arrAt_in 0 rfl _).trans ((A_eq m c 0).trans (V_main_arg2 m c))),
       ((h c).2 main_arg3 (Pipeline.mem_restRefs_of main_arg3 (by decide) (by decide))).trans (W_main_arg3 m (dats m) c),
       ((h c).2 main_arg4 (Pipeline.mem_restRefs_of main_arg4 (by decide) (by decide))).trans (W_main_arg4 m (dats m) c),
       ((h c).2 main_arg5 (Pipeline.mem_restRefs_of main_arg5 (by decide) (by decide))).trans (W_main_arg5 m (dats m) c),
       ((h c).2 main_arg6 (Pipeline.mem_restRefs_of main_arg6 (by decide) (by decide))).trans (W_main_arg6 m (dats m) c)⟩)
    (run_main m ρ)

end Cert.KernelIdeal.Run

end
-- ==== Proof.lean ====
/-
  A Pallas kernel that scores the 32768 edges of a graph against its jnp reference, equal on the extended reals.

  Both programs gather eleven node features onto each edge from its tail and from its head through dense incidence
  matrices, run the 22 features through a hidden layer of eight `tanh` units and read one logistic output. The kernel
  does it 256 edges at a time in a feature-major layout (every product has the edge axis as its last), on re-laid copies
  of the small arrays, and transposes its row of scores at the end; the reference does it edge-major in one piece and
  spells the logistic function as `1 / (1 + exp (−x))`. The two differ in the order of the factors of each product, in
  the tiling, and in that spelling; none of these changes a value on the extended reals, so no input needs to be finite.

  `Proof/EdgeScore.lean` states the scorer; `Proof/RefScore.lean` shows the reference's result is it;
  `Proof/KernelPayload.lean`, `Proof/KernelBlocks.lean` and `Proof/KernelRun.lean` show the kernel's is: the body at a lane,
  the blocks into the row, the row into the result. The two kernel frames and the reference's run are the generated ones;
  the idealization rewrote nothing, so its conjunct is `True`.
-/
import proofs.«129403_j36498632081416_1_alg».proof.Defs
import proofs.«129403_j36498632081416_1_alg».proof.Proof.Gen.Kernel
import proofs.«129403_j36498632081416_1_alg».proof.Proof.Gen.Kernel.Skeleton
import proofs.«129403_j36498632081416_1_alg».proof.Proof.Gen.Kernel.Launch
import proofs.«129403_j36498632081416_1_alg».proof.Proof.Gen.Kernel.Points
import proofs.«129403_j36498632081416_1_alg».proof.Proof.Gen.Kernel.Frame
import proofs.«129403_j36498632081416_1_alg».proof.Proof.Gen.KernelIdeal
import proofs.«129403_j36498632081416_1_alg».proof.Proof.Gen.KernelIdeal.Skeleton
import proofs.«129403_j36498632081416_1_alg».proof.Proof.Gen.KernelIdeal.Launch
import proofs.«129403_j36498632081416_1_alg».proof.Proof.Gen.KernelIdeal.Points
import proofs.«129403_j36498632081416_1_alg».proof.Proof.Gen.KernelIdeal.Frame
import proofs.«129403_j36498632081416_1_alg».proof.Proof.Gen.ReferenceIdeal
import proofs.«129403_j36498632081416_1_alg».proof.Proof.Gen.Pre_finite_inputs
import proofs.«129403_j36498632081416_1_alg».proof.Proof.Gen.ReferenceIdeal.Run
import proofs.«129403_j36498632081416_1_alg».proof.Proof.Gen.ReferenceIdeal.Read
import proofs.«129403_j36498632081416_1_alg».proof.Proof.RefScore
import proofs.«129403_j36498632081416_1_alg».proof.Proof.KernelRun
import Idealize.ShloMosaic.Adequacy
import Idealize.ShloMosaic.Init

noncomputable section

namespace Cert.Proof

open Idealize.ShloMosaic Idealize.SL.Sem

/-- The word-level kernel terminates, faults nowhere and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- And the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the seven arguments both programs end with the array of edge scores of those arguments:
    the kernel's row transposed, and the reference's last stage. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v17_eq, Cert.ReferenceIdeal.RefValue.reference_eq, h0, h1, h2, h3, h4, h5, h6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
